-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S2050x512 : Shape := ⟨2, ![2050, 512]⟩
abbrev S64x512 : Shape := ⟨2, ![64, 512]⟩
abbrev S4096x512 : Shape := ⟨2, ![4096, 512]⟩
abbrev S8x1024 : Shape := ⟨2, ![8, 1024]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S2050x512 : S_.BroadcastsInDim S2050x512 (![] : Fin 0 → Fin S2050x512.rank)
  reducesTo_S2050x512_S_d0_1 : S2050x512.ReducesTo [0, 1] S_
  bcast_S_S64x512 : S_.BroadcastsInDim S64x512 (![] : Fin 0 → Fin S64x512.rank)
  reducesTo_S64x512_S_d0_1 : S64x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S4096x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  main_v23

def fn {F : FTy → Type} [FloatOps F] (main_arg0 : FVec F S8x1024x512 .f32) (main_arg1 : FVec F S2050x512 .f32) (main_arg2 : FVec F S64x512 .f32) (main_arg3 : FVec F S64x512 .f32) (main_arg4 : FVec F S4096x512 .f32) (main_arg5 : IVec S8x1024 1) (main_arg6 : IVec S8x1024 32) (main_arg7 : IVec S8x1024 32) (main_arg8 : IVec S8x1024 32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S2050x512 .f32 := Host.absf main_arg1
  let main_cst_0 : FVec F S_ .f32 := constant S_ .f32 0x7F800000#32
  let main_v5 : FVec F S2050x512 .f32 := broadcastInDim S2050x512 ![] bcast_S_S2050x512 main_cst_0
  let main_v6 : IVec S2050x512 1 := cmpf .olt main_v4 main_v5
  let main_c_1 : IVec S_ 1 := constantI S_ 1 1#1
  let main_v7 : IVec S_ 1 := (fun x v => Host.reduce IntOp.andi x v reducesTo_S2050x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_v13 main_v16
-- ==== Kernel.lean ====
abbrev S8x1024x512 : Shape := ⟨3, ![8, 1024, 512]⟩
abbrev S2050x512 : Shape := ⟨2, ![2050, 512]⟩
abbrev S64x512 : Shape := ⟨2, ![64, 512]⟩
abbrev S4096x512 : Shape := ⟨2, ![4096, 512]⟩
abbrev S8x1024 : Shape := ⟨2, ![8, 1024]⟩
abbrev S_ : Shape := ⟨0, ![]⟩
abbrev S8x1024x1 : Shape := ⟨3, ![8, 1024, 1]⟩
abbrev S512x4096 : Shape := ⟨2, ![512, 4096]⟩
abbrev S4096 : Shape := ⟨1, ![4096]⟩
abbrev S1x4096 : Shape := ⟨2, ![1, 4096]⟩
abbrev S8x1024x4096 : Shape := ⟨3, ![8, 1024, 4096]⟩
abbrev S1x512x512 : Shape := ⟨3, ![1, 512, 512]⟩
abbrev S1x512x4096 : Shape := ⟨3, ![1, 512, 4096]⟩
abbrev S512x512 : Shape := ⟨2, ![512, 512]⟩
abbrev S512 : Shape := ⟨1, ![512]⟩
abbrev S512x1 : Shape := ⟨2, ![512, 1]⟩

abbrev nBuf : Space → Nat
  | .hbm => 59
  | .vmem => 6
  | .smem => 0
  | _ => 0

abbrev bufTy : (tb : Table) → Fin (tcTables nBuf tb) → BufTy
  | .hbm, ⟨0, _⟩ => ⟨S8x1024x512, .f32⟩
  | .hbm, ⟨1, _⟩ => ⟨S2050x512, .f32⟩
  | .hbm, ⟨2, _⟩ => ⟨S64x512, .f32⟩
  | .hbm, ⟨3, _⟩ => ⟨S64x512, .f32⟩
  | .hbm, ⟨4, _⟩ => ⟨S4096x512, .f32⟩
  | .hbm, ⟨5, _⟩ => ⟨S8x1024, .i1⟩
  | .hbm, ⟨6, _⟩ => ⟨S8x1024, .i32⟩
  | .hbm, ⟨7, _⟩ => ⟨S8x1024, .i32⟩
  | .hbm, ⟨8, _⟩ => ⟨S8x1024, .i32⟩
  | .hbm, ⟨9, _⟩ => ⟨S8x1024, .i1⟩
  | .hbm, ⟨10, _⟩ => ⟨S_, .i32⟩
  | .hbm, ⟨11, _⟩ => ⟨S_, .i32⟩
  | .hbm, ⟨12, _⟩ => ⟨S8x1024, .i32⟩
  | .hbm, ⟨13, _⟩ => ⟨S8x1024, .i32⟩
  | .hbm, ⟨14, _⟩ => ⟨S_, .i32⟩
  | .hbm, ⟨15, _⟩ => ⟨S_, .i32⟩
  | .hbm, ⟨16, _⟩ => ⟨S8x1024, .i32⟩
  | .hbm, ⟨17, _⟩ => ⟨S8x1024, .i32⟩
  | .hbm, ⟨18, _⟩ => ⟨S_, .i32⟩
  | .hbm, ⟨19, _⟩ => ⟨S_, .i32⟩
  | .hbm, ⟨20, _⟩ => ⟨S8x1024, .i32⟩
  | .hbm, ⟨21, _⟩ => ⟨S8x1024, .i32⟩
  | .hbm, ⟨22, _⟩ => ⟨S_, .i32⟩
  | .hbm, ⟨23, _⟩ => ⟨S8x1024, .i32⟩
  | .hbm, ⟨24, _⟩ => ⟨S8x1024, .i1⟩
  | .hbm, ⟨25, _⟩ => ⟨S_, .i32⟩
  | .hbm, ⟨26, _⟩ => ⟨S8x1024, .i32⟩
  | .hbm, ⟨27, _⟩ => ⟨S8x1024, .i32⟩
  | .hbm, ⟨28, _⟩ => ⟨S8x1024, .i32⟩
  | .hbm, ⟨29, _⟩ => ⟨S8x1024x1, .i32⟩
  | .hbm, ⟨30, _⟩ => ⟨S8x1024x512, .f32⟩
  | .hbm, ⟨31, _⟩ => ⟨S_, .i32⟩
  | .hbm, ⟨32, _⟩ => ⟨S8x1024, .i32⟩
  | .hbm, ⟨33, _⟩ => ⟨S8x1024, .i1⟩
  | .hbm, ⟨34, _⟩ => ⟨S_, .i32⟩
  | .hbm, ⟨35, _⟩ => ⟨S8x1024, .i32⟩
  | .hbm, ⟨36, _⟩ => ⟨S8x1024, .i32⟩
  | .hbm, ⟨37, _⟩ => ⟨S8x1024, .i32⟩
  | .hbm, ⟨38, _⟩ => ⟨S8x1024x1, .i32⟩
  | .hbm, ⟨39, _⟩ => ⟨S8x1024x512, .f32⟩
  | .hbm, ⟨40, _⟩ => ⟨S8x1024x512, .f32⟩
  | .hbm, ⟨41, _⟩ => ⟨S_, .i32⟩
  | .hbm, ⟨42, _⟩ => ⟨S8x1024, .i32⟩
  | .hbm, ⟨43, _⟩ => ⟨S8x1024, .i1⟩
  | .hbm, ⟨44, _⟩ => ⟨S_, .i32⟩
  | .hbm, ⟨45, _⟩ => ⟨S8x1024, .i32⟩
  | .hbm, ⟨46, _⟩ => ⟨S8x1024, .i32⟩
  | .hbm, ⟨47, _⟩ => ⟨S8x1024, .i32⟩
  | .hbm, ⟨48, _⟩ => ⟨S8x1024x1, .i32⟩
  | .hbm, ⟨49, _⟩ => ⟨S8x1024x512, .f32⟩
  | .hbm, ⟨50, _⟩ => ⟨S8x1024x512, .f32⟩
  | .hbm, ⟨51, _⟩ => ⟨S8x1024x512, .f32⟩
  | .hbm, ⟨52, _⟩ => ⟨S4096x512, .bf16⟩
  | .hbm, ⟨53, _⟩ => ⟨S512x4096, .bf16⟩
  | .hbm, ⟨54, _⟩ => ⟨S4096x512, .f32⟩
  | .hbm, ⟨55, _⟩ => ⟨S_, .f32⟩
  | .hbm, ⟨56, _⟩ => ⟨S4096, .f32⟩
  | .hbm, ⟨57, _⟩ => ⟨S1x4096, .f32⟩
  | .hbm, ⟨58, _⟩ => ⟨S8x1024x4096, .f32⟩
  | .local _ .vmem, ⟨0, _⟩ => ⟨S1x512x512, .f32⟩
  | .local _ .vmem, ⟨1, _⟩ => ⟨S1x512x512, .f32⟩
  | .local _ .vmem, ⟨2, _⟩ => ⟨S512x4096, .bf16⟩
  | .local _ .vmem, ⟨3, _⟩ => ⟨S1x4096, .f32⟩
  | .local _ .vmem, ⟨4, _⟩ => ⟨S1x512x4096, .f32⟩
  | .local _ .vmem, ⟨5, _⟩ => ⟨S1x512x4096, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_v2 : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_v3 : Ref sig .tc := ⟨.hbm, 21, rfl⟩
abbrev main_c_2 : Ref sig .tc := ⟨.hbm, 22, rfl⟩
abbrev main_v4 : Ref sig .tc := ⟨.hbm, 23, rfl⟩
abbrev main_v5 : Ref sig .tc := ⟨.hbm, 24, rfl⟩
abbrev main_c_3 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_6 : Ref sig .tc := ⟨.hbm, 41, rfl⟩
abbrev main_v19 : Ref sig .tc := ⟨.hbm, 42, rfl⟩
abbrev main_v20 : Ref sig .tc := ⟨.hbm, 43, rfl⟩
abbrev main_c_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bitsLt_bf16_f32 : FTy.bits .bf16 < FTy.bits .f32
  transposes_S4096x512_S512x4096_1_0 : S4096x512.Transposes [1, 0] S512x4096
  reducesTo_S4096x512_S4096_d1 : S4096x512.ReducesTo [1] S4096
  h_S_ : 0 < S_.numel
  shapeCasts_S4096_S1x4096 : S4096.ShapeCasts S1x4096
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S512x512_S512 : S512x512.Reduces [1] S512
  shapeCasts_S512_S512x1 : S512.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  gather_S2050x512_S8x1024x1_S8x1024x512_2_0_n_n_0_2_1512_wf : GatherDims.WF S2050x512 S8x1024x1 S8x1024x512 [2] [0] [] [0] [] 2 ![1, 512]
  gather_S64x512_S8x1024x1_S8x1024x512_2_0_n_n_0_2_1512_wf : GatherDims.WF S64x512 S8x1024x1 S8x1024x512 [2] [0] [] [0] [] 2 ![1, 512]
  dot_S512x512_S512x4096_S512x4096_1_0_0_1_n_n_wf : DotDims.WF S512x512 S512x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x1024x512.size a
  hwx0_0 : ∀ i : grid0.Coords, EltTy.bits .f32 = 32 ∨ (Rect.block (s := S8x1024x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x4096.size a ≤ S8x1024x4096.size a
  hwx0_3 : ∀ i : grid0.Coords, EltTy.bits .f32 = 32 ∨ (Rect.block (s := S8x1024x4096) S1x512x4096.size (cc0_transform_3 i) (hinb0_3 i)).WholeWords (EltTy.packing .f32)

variable [Facts₀]

def gather_S2050x512_S8x1024x1_S8x1024x512_2_0_n_n_0_2_1512 : GatherDims S2050x512 S8x1024x1 S8x1024x512 where
  offsetDims := [2]
  collapsedSliceDims := [0]
  operandBatchingDims := []
  startIndicesBatchingDims := []
  startIndexMap := [0]
  indexVectorDim := 2
  sliceSizes := ![1, 512]
  wf := gather_S2050x512_S8x1024x1_S8x1024x512_2_0_n_n_0_2_1512_wf
def gather_S64x512_S8x1024x1_S8x1024x512_2_0_n_n_0_2_1512 : GatherDims S64x512 S8x1024x1 S8x1024x512 where
  offsetDims := [2]
  collapsedSliceDims := [0]
  operandBatchingDims := []
  startIndicesBatchingDims := []
  startIndexMap := [0]
  indexVectorDim := 2
  sliceSizes := ![1, 512]
  wf := gather_S64x512_S8x1024x1_S8x1024x512_2_0_n_n_0_2_1512_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf

abbrev win0_0 : Pipeline.Window sig grid0 :=
  Pipeline.Window.ofSpec (Memref.whole main_v27) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S2050x512 : Shape := ⟨2, ![2050, 512]⟩
abbrev S64x512 : Shape := ⟨2, ![64, 512]⟩
abbrev S4096x512 : Shape := ⟨2, ![4096, 512]⟩
abbrev S8x1024 : Shape := ⟨2, ![8, 1024]⟩
abbrev S_ : Shape := ⟨0, ![]⟩
abbrev S8x1024x1 : Shape := ⟨3, ![8, 1024, 1]⟩
abbrev S4096 : Shape := ⟨1, ![4096]⟩
abbrev S8x1024x4096 : Shape := ⟨3, ![8, 1024, 4096]⟩
abbrev S1x1x4096 : Shape := ⟨3, ![1, 1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S2050x512, .f32⟩
  | .hbm, ⟨2, _⟩ => ⟨S64x512, .f32⟩
  | .hbm, ⟨3, _⟩ => ⟨S64x512, .f32⟩
  | .hbm, ⟨4, _⟩ => ⟨S4096x512, .f32⟩
  | .hbm, ⟨5, _⟩ => ⟨S8x1024, .i1⟩
  | .hbm, ⟨6, _⟩ => ⟨S8x1024, .i32⟩
  | .hbm, ⟨7, _⟩ => ⟨S8x1024, .i32⟩
  | .hbm, ⟨8, _⟩ => ⟨S8x1024, .i32⟩
  | .hbm, ⟨9, _⟩ => ⟨S8x1024, .i1⟩
  | .hbm, ⟨10, _⟩ => ⟨S_, .i32⟩
  | .hbm, ⟨11, _⟩ => ⟨S_, .i32⟩
  | .hbm, ⟨12, _⟩ => ⟨S8x1024, .i32⟩
  | .hbm, ⟨13, _⟩ => ⟨S8x1024, .i32⟩
  | .hbm, ⟨14, _⟩ => ⟨S_, .i32⟩
  | .hbm, ⟨15, _⟩ => ⟨S_, .i32⟩
  | .hbm, ⟨16, _⟩ => ⟨S8x1024, .i32⟩
  | .hbm, ⟨17, _⟩ => ⟨S8x1024, .i32⟩
  | .hbm, ⟨18, _⟩ => ⟨S_, .i32⟩
  | .hbm, ⟨19, _⟩ => ⟨S_, .i32⟩
  | .hbm, ⟨20, _⟩ => ⟨S8x1024, .i32⟩
  | .hbm, ⟨21, _⟩ => ⟨S8x1024, .i32⟩
  | .hbm, ⟨22, _⟩ => ⟨S_, .i32⟩
  | .hbm, ⟨23, _⟩ => ⟨S8x1024, .i32⟩
  | .hbm, ⟨24, _⟩ => ⟨S8x1024, .i1⟩
  | .hbm, ⟨25, _⟩ => ⟨S_, .i32⟩
  | .hbm, ⟨26, _⟩ => ⟨S8x1024, .i32⟩
  | .hbm, ⟨27, _⟩ => ⟨S8x1024, .i32⟩
  | .hbm, ⟨28, _⟩ => ⟨S8x1024, .i32⟩
  | .hbm, ⟨29, _⟩ => ⟨S8x1024x1, .i32⟩
  | .hbm, ⟨30, _⟩ => ⟨S8x1024x512, .f32⟩
  | .hbm, ⟨31, _⟩ => ⟨S_, .i32⟩
  | .hbm, ⟨32, _⟩ => ⟨S8x1024, .i32⟩
  | .hbm, ⟨33, _⟩ => ⟨S8x1024, .i1⟩
  | .hbm, ⟨34, _⟩ => ⟨S_, .i32⟩
  | .hbm, ⟨35, _⟩ => ⟨S8x1024, .i32⟩
  | .hbm, ⟨36, _⟩ => ⟨S8x1024, .i32⟩
  | .hbm, ⟨37, _⟩ => ⟨S8x1024, .i32⟩
  | .hbm, ⟨38, _⟩ => ⟨S8x1024x1, .i32⟩
  | .hbm, ⟨39, _⟩ => ⟨S8x1024x512, .f32⟩
  | .hbm, ⟨40, _⟩ => ⟨S8x1024x512, .f32⟩
  | .hbm, ⟨41, _⟩ => ⟨S_, .i32⟩
  | .hbm, ⟨42, _⟩ => ⟨S8x1024, .i32⟩
  | .hbm, ⟨43, _⟩ => ⟨S8x1024, .i1⟩
  | .hbm, ⟨44, _⟩ => ⟨S_, .i32⟩
  | .hbm, ⟨45, _⟩ => ⟨S8x1024, .i32⟩
  | .hbm, ⟨46, _⟩ => ⟨S8x1024, .i32⟩
  | .hbm, ⟨47, _⟩ => ⟨S8x1024, .i32⟩
  | .hbm, ⟨48, _⟩ => ⟨S8x1024x1, .i32⟩
  | .hbm, ⟨49, _⟩ => ⟨S8x1024x512, .f32⟩
  | .hbm, ⟨50, _⟩ => ⟨S8x1024x512, .f32⟩
  | .hbm, ⟨51, _⟩ => ⟨S8x1024x512, .f32⟩
  | .hbm, ⟨52, _⟩ => ⟨S8x1024x512, .f32⟩
  | .hbm, ⟨53, _⟩ => ⟨S_, .f32⟩
  | .hbm, ⟨54, _⟩ => ⟨S8x1024, .f32⟩
  | .hbm, ⟨55, _⟩ => ⟨S8x1024x1, .f32⟩
  | .hbm, ⟨56, _⟩ => ⟨S4096x512, .f32⟩
  | .hbm, ⟨57, _⟩ => ⟨S_, .f32⟩
  | .hbm, ⟨58, _⟩ => ⟨S4096, .f32⟩
  | .hbm, ⟨59, _⟩ => ⟨S8x1024x4096, .f32⟩
  | .hbm, ⟨60, _⟩ => ⟨S1x1x4096, .f32⟩
  | .hbm, ⟨61, _⟩ => ⟨S8x1024x4096, .f32⟩
  | .hbm, ⟨62, _⟩ => ⟨S8x1024x4096, .f32⟩
  | .hbm, ⟨63, _⟩ => ⟨S8x1024x4096, .f32⟩
  | .hbm, ⟨64, _⟩ => ⟨S_, .f32⟩
  | .hbm, ⟨65, _⟩ => ⟨S8x1024x4096, .f32⟩
  | .hbm, ⟨66, _⟩ => ⟨S8x1024x4096, .f32⟩
  | .hbm, ⟨67, _⟩ => ⟨S8x1024x4096, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v1 : Ref sig .tc := ⟨.hbm, 13, rfl⟩
abbrev main_c_0 : Ref sig .tc := ⟨.hbm, 14, rfl⟩
abbrev main_call1_v0 : Ref sig .tc := ⟨.hbm, 15, rfl⟩
abbrev main_call1_v1 : Ref sig .tc := ⟨.hbm, 16, rfl⟩
abbrev main_v2 : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_v3 : Ref sig .tc := ⟨.hbm, 21, rfl⟩
abbrev main_c_2 : Ref sig .tc := ⟨.hbm, 22, rfl⟩
abbrev main_v4 : Ref sig .tc := ⟨.hbm, 23, rfl⟩
abbrev main_v5 : Ref sig .tc := ⟨.hbm, 24, rfl⟩
abbrev main_c_3 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_c_5 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_6 : Ref sig .tc := ⟨.hbm, 41, rfl⟩
abbrev main_v19 : Ref sig .tc := ⟨.hbm, 42, rfl⟩
abbrev main_v20 : Ref sig .tc := ⟨.hbm, 43, rfl⟩
abbrev main_c_7 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]

class Facts₀ : Prop where
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  reducesTo_S8x1024x512_S8x1024_d2 : S8x1024x512.ReducesTo [2] S8x1024
  h_S_ : 0 < S_.numel
  reducesTo_S4096x512_S4096_d1 : S4096x512.ReducesTo [1] S4096
  bcast_S4096_S1x1x4096_2 : S4096.BroadcastsInDim S1x1x4096 (![2] : Fin 1 → Fin S1x1x4096.rank)
  bcast_S8x1024x1_S8x1024x4096_0_1_2 : S8x1024x1.BroadcastsInDim S8x1024x4096 (![0, 1, 2] : Fin 3 → Fin S8x1024x4096.rank)
  bcast_S1x1x4096_S8x1024x4096_0_1_2 : S1x1x4096.BroadcastsInDim S8x1024x4096 (![0, 1, 2] : Fin 3 → Fin S8x1024x4096.rank)
  bcast_S_S8x1024x4096 : S_.BroadcastsInDim S8x1024x4096 (![] : Fin 0 → Fin S8x1024x4096.rank)
  gather_S2050x512_S8x1024x1_S8x1024x512_2_0_n_n_0_2_1512_wf : GatherDims.WF S2050x512 S8x1024x1 S8x1024x512 [2] [0] [] [0] [] 2 ![1, 512]
  gather_S64x512_S8x1024x1_S8x1024x512_2_0_n_n_0_2_1512_wf : GatherDims.WF S64x512 S8x1024x1 S8x1024x512 [2] [0] [] [0] [] 2 ![1, 512]
  dot_S8x1024x512_S4096x512_S8x1024x4096_2_1_01_0_n_n_wf : DotDims.WF S8x1024x512 S4096x512 S8x1024x4096 [2] [1] [0, 1] [0] [] []

variable [Facts₀]

def gather_S2050x512_S8x1024x1_S8x1024x512_2_0_n_n_0_2_1512 : GatherDims S2050x512 S8x1024x1 S8x1024x512 where
  offsetDims := [2]
  collapsedSliceDims := [0]
  operandBatchingDims := []
  startIndicesBatchingDims := []
  startIndexMap := [0]
  indexVectorDim := 2
  sliceSizes := ![1, 512]
  wf := gather_S2050x512_S8x1024x1_S8x1024x512_2_0_n_n_0_2_1512_wf
def gather_S64x512_S8x1024x1_S8x1024x512_2_0_n_n_0_2_1512 : GatherDims S64x512 S8x1024x1 S8x1024x512 where
  offsetDims := [2]
  collapsedSliceDims := [0]
  operandBatchingDims := []
  startIndicesBatchingDims := []
  startIndexMap := [0]
  indexVectorDim := 2
  sliceSizes := ![1, 512]
  wf := gather_S64x512_S8x1024x1_S8x1024x512_2_0_n_n_0_2_1512_wf
def dot_S8x1024x512_S4096x512_S8x1024x4096_2_1_01_0_n_n : DotDims S8x1024x512 S4096x512 S8x1024x4096 where
  lhsContracting := [2]
  rhsContracting := [1]
  lhsNonContracting := [0, 1]
  rhsNonContracting := [0]
  lhsBatch := []
  rhsBatch := []
  wf := dot_S8x1024x512_S4096x512_S8x1024x4096_2_1_01_0_n_n_wf

class Facts : Prop extends Facts₀ where

variable [Facts]
-- ==== Proof.SqDist.lean ====
/- The squared Euclidean distance from every token's latent vector to every codebook row, in the expanded
   form  |x|^2 + |c|^2 - 2 <x, c>  that avoids the [tokens, codes, features] difference array, written as ONE
   function of three arrays over the extended reals, index by index: the latent array x[b, l, d], the
   codebook c[k, d], and the codebook rows' squared norms n[k] taken as a third array (both programs
   compute that array by the same host reduction, so nothing here opens it). At output index (b, l, k):
       (sum_d x[b,l,d] * x[b,l,d]  +  n[k])  -  two * sum_d x[b,l,d] * c[k,d]
   with the sums over the 512 features and `two` the f32 pattern of 2.0, kept as a pattern: both programs
   carry the same pattern, so its value is never needed. -/
import Idealize.ShloMosaic.PureOps.Ideal
import Idealize.ShloMosaic.Lib.ValueIdx

noncomputable section

open scoped BigOperators

namespace Cert.SqDist

open Idealize.ShloMosaic Idealize.ShloMosaic.ValueIdx

/-- The latent array: batch, position, feature. -/
abbrev Latent : Shape := ⟨3, ![8, 1024, 512]⟩
/-- The codebook: code, feature. -/
abbrev Codes : Shape := ⟨2, ![4096, 512]⟩
/-- One squared norm per code. -/
abbrev CodeNorms : Shape := ⟨1, ![4096]⟩
/-- The distances: batch, position, code. -/
abbrev Dists : Shape := ⟨3, ![8, 1024, 4096]⟩

/-- Feature `d` of the token that output index `i` belongs to. -/
abbrev tokenAt (i : Dists.Idx) (d : Fin 512) : Latent.Idx :=
  fun a => match a with
    | ⟨0, _⟩ => ⟨(i 0).val, (i 0).isLt⟩
    | ⟨1, _⟩ => ⟨(i 1).val, (i 1).isLt⟩
    | ⟨2, _⟩ => ⟨d.val, d.isLt⟩
/-- Feature `d` of the code that output index `i` belongs to. -/
abbrev codeAt (i : Dists.Idx) (d : Fin 512) : Codes.Idx :=
  fun a => match a with
    | ⟨0, _⟩ => ⟨(i 2).val, (i 2).isLt⟩
    | ⟨1, _⟩ => ⟨d.val, d.isLt⟩
/-- The code that output index `i` belongs to. -/
abbrev normAt (i : Dists.Idx) : CodeNorms.Idx :=
  fun a => match a with
    | ⟨0, _⟩ => ⟨(i 2).val, (i 2).isLt⟩

/-- The expanded squared distance, index by index. -/
def expanded (x : Latent.Idx → EReal) (cb : Codes.Idx → EReal) (n : CodeNorms.Idx → EReal) : Dists.Idx → EReal :=
  fun i => ((∑ d : Fin 512, x (tokenAt i d) * x (tokenAt i d)) + n (normAt i))
    - Ideal.ofBits .f32 0x40000000#32 * ∑ d : Fin 512, x (tokenAt i d) * cb (codeAt i d)

end Cert.SqDist

end
-- ==== Proof.RefSqDist.lean ====
/- The reference computes the expanded squared distance of SqDist.lean. Its last stage, read one operation at a time
   through the generated read-at-an-index lemmas, is at output index (b, l, k)
       ((z + sum_d x[b,l,d] * x[b,l,d]) + n[k])  -  two * sum_d x[b,l,d] * c[k,d]
   where x is the stage that adds the three gathered embeddings to the hidden states, z is the f32 zero the host's
   sum starts from (z + s = s), the row sums reach index (b, l, k) through two broadcasts that only re-lay them, and n
   is the reference's own stage of the codes' squared norms, read at k through its two broadcasts and left unopened. -/
import proofs.«129325_j33535104647912_1_alg».proof.Proof.Gen.ReferenceIdeal.Read
import proofs.«129325_j33535104647912_1_alg».proof.Proof.SqDist
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
open Cert.SqDist

/-- The reference's result, as a function of @main's arguments, is the expanded squared distance of its own latent
    stage, the codebook argument and its own squared-norm stage. -/
theorem result_eq (x0 : (⟨S8x1024x512, .f32⟩ : BufTy).Contents (Elt Ideal)) (x1 : (⟨S2050x512, .f32⟩ : BufTy).Contents (Elt Ideal))
    (x2 x3 : (⟨S64x512, .f32⟩ : BufTy).Contents (Elt Ideal)) (x4 : (⟨S4096x512, .f32⟩ : BufTy).Contents (Elt Ideal))
    (x5 : (⟨S8x1024, .i1⟩ : BufTy).Contents (Elt Ideal)) (x6 x7 x8 : (⟨S8x1024, .i32⟩ : BufTy).Contents (Elt Ideal)) :
    val_main_v40 (F := Ideal) x0 x1 x2 x3 x4 x5 x6 x7 x8
      = expanded (val_main_v27 (F := Ideal) x0 x1 x2 x3 x5 x6 x7 x8) x4 (val_main_v32 (F := Ideal) x4) := by
  funext i
  have etok : ∀ k : Fin 512, idx_main_v29 (idx_main_v30 (idx_main_v35 i)) k = tokenAt i k := fun k =>
    funext fun a => by match a with | ⟨0, _⟩ => rfl | ⟨1, _⟩ => rfl | ⟨2, _⟩ => rfl
  have etok' : ∀ k : Fin 512, lidx_main_v33 i k = tokenAt i k := fun k =>
    funext fun a => by match a with | ⟨0, _⟩ => rfl | ⟨1, _⟩ => rfl | ⟨2, _⟩ => rfl
  have ecode : ∀ k : Fin 512, ridx_main_v33 i k = codeAt i k := fun k =>
    funext fun a => by match a with | ⟨0, _⟩ => rfl | ⟨1, _⟩ => rfl
  have enorm : idx_main_v34 (idx_main_v36 i) = normAt i :=
    funext fun a => by match a with | ⟨0, _⟩ => rfl
  rw [val_main_v40_apply, val_main_v37_apply, val_main_v35_apply, val_main_v30_apply, val_main_v29_apply,
    val_main_v36_apply, val_main_v34_apply, val_main_v39_apply, val_main_v38_apply, val_main_v33_apply]
  simp only [val_main_v28_apply, val_main_cst_apply, val_main_cst_9_apply, etok, etok', ecode, enorm,
    Ideal.subf_def, Ideal.addf_def, Ideal.mulf_def, Ideal.ofBits_def, Ideal.ofBits_zero_f32, zero_add]
  rfl

end Cert.ReferenceIdeal.RefValue

end
-- ==== Proof.HostPrefix.lean ====
/- What the kernel's three staged arrays hold when the region is entered, as functions of the arguments. The host
   operations in front of the region are the reference's own first operations, in the same order, so the latent array
   (hidden states plus the three gathered embeddings, the padding ids selected in) is the reference's latent stage of
   the same arguments, term for term. The matrix operand is the codebook narrowed to bf16 and transposed. The norm row
   is the reference's stage of the codes' squared norms (the row sums of the codebook's squares from a zero start),
   laid as one row of 4096. -/
import proofs.«129325_j33535104647912_1_alg».proof.Proof.Gen.KernelIdeal.Frame
import proofs.«129325_j33535104647912_1_alg».proof.Proof.Gen.ReferenceIdeal.Read
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 2000000 in
/-- The latent array the first window stages is the reference's latent stage of the same arguments. -/
theorem latent_eq (c : Dev nD) :
    (V m c main_v27 : S8x1024x512.Idx → EReal)
      = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp <;> rfl

set_option maxRecDepth 8192 in
set_option maxHeartbeats 2000000 in
/-- The matrix operand the second window stages is the codebook, narrowed and with its axes exchanged. -/
theorem codesT_eq (c : Dev nD) :
    (V m c main_v29 : S512x4096.Idx → EReal)
      = transpose S512x4096 [1, 0] (truncf (F := Ideal) .bf16 (m ((c : Thread nD τ).loc main_arg4)) bitsLt_bf16_f32) transposes_S4096x512_S512x4096_1_0 := by
  dsimp only [Gen.V]
  simp only [hostOps0, hostOps0_1, hostOps0_2, hostOps0_3, hostOps0_4, hostOps0_5, hostOps0_6, List.flatten_cons, List.flatten_nil, List.append_nil, List.cons_append, List.nil_append]
  after_results_simp <;> rfl

set_option maxRecDepth 8192 in
set_option maxHeartbeats 2000000 in
/-- The norm row the third window stages is the reference's squared-norm stage, laid as one row. -/
theorem norms_eq (c : Dev nD) :
    (V m c main_v32 : S1x4096.Idx → EReal)
      = shapeCast S1x4096 (Cert.ReferenceIdeal.Read.val_main_v32 (F := Ideal) (m ((c : Thread nD τ).loc main_arg4))) shapeCasts_S4096_S1x4096 := by
  dsimp only [Gen.V]
  simp only [hostOps0, hostOps0_1, hostOps0_2, hostOps0_3, hostOps0_4, hostOps0_5, hostOps0_6, List.flatten_cons, List.flatten_nil, List.append_nil, List.cons_append, List.nil_append]
  after_results_simp <;> rfl

end Cert.KernelIdeal.HostPrefix

end
-- ==== Proof.TilePayload.lean ====
/- What one grid point's body stores, read at one element. The body holds a [1, 512, 512] block of latent rows x, the
   whole [512, 4096] transposed codebook t (features by codes, in bf16, which is the identity on the extended reals)
   and the [1, 4096] row n of the codes' squared norms, and stores the [1, 512, 4096] tile whose element (0, r, k) is
       (sum_d x[0,r,d] * x[0,r,d]  +  n[0,k])  -  two * sum_d x[0,r,d] * t[d,k].
   The row sums of squares come from a lane reduction kept as a column and broadcast along the codes; the codes' norms
   from the one row broadcast along the rows; the products from a matrix product into a zero accumulator, which on the
   extended reals is the plain sum over the contracted feature axis. -/
import proofs.«129325_j33535104647912_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## Two re-layings of a column -/

section Column
variable {α : Type}

/-- A vector kept as a column, [a] to [a, 1], reads at (i, u) the vector at i: the two row-major positions agree
    because the unit axis contributes nothing. -/
theorem column_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along a new long axis, [a, 1] to [a, b], reads at (p, c) the column at (p, 0). -/
theorem column_bcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The lane sum of a [512, 512] block along its second axis -/

/-- Row r of the lane reduction is the sum of row r's 512 entries. -/
theorem rowsum_apply (w : FVec Ideal S512x512 .f32) (h : S512x512.Reduces [1] S512) (hφ : FKind.Formats .f32)
    (hacc : (0x00000000#32 : BitVec 32) = 0x00000000#32) (r : Fin 512) :
    multiReduction .add [1] S512 w 0x00000000#32 h hφ hacc (ix1 r) = ∑ d : Fin 512, w (ix2 r d) := by
  refine (Ideal.multiReduction_add_single w 0x00000000#32 h hφ hacc (ix1 r)).trans ?_
  exact Finset.sum_congr rfl fun d _ => congrArg w (funext fun a => Fin.ext (by
    match a with | ⟨0, _⟩ => rfl | ⟨1, _⟩ => rfl))

/-! ## The matrix product's operand indices -/

theorem lhs_axis0 (i : S512x4096.Idx) (q : dot_S512x512_S512x4096_S512x4096_1_0_0_1_n_n.contr.Idx) :
    (dot_S512x512_S512x4096_S512x4096_1_0_0_1_n_n.lhsIdx i q 0).val = (i 0).val := by
  unfold DotDims.lhsIdx
  rw [dif_neg (show ¬(0 : Fin S512x512.rank) ∈ dot_S512x512_S512x4096_S512x4096_1_0_0_1_n_n.lhsBatch by decide), dif_pos (show (0 : Fin S512x512.rank) ∈ dot_S512x512_S512x4096_S512x4096_1_0_0_1_n_n.lhsNonContracting by decide)]
  rfl
theorem lhs_axis1 (i : S512x4096.Idx) (q : dot_S512x512_S512x4096_S512x4096_1_0_0_1_n_n.contr.Idx) :
    (dot_S512x512_S512x4096_S512x4096_1_0_0_1_n_n.lhsIdx i q 1).val = (q ⟨0, by decide⟩).val :=
  dot_S512x512_S512x4096_S512x4096_1_0_0_1_n_n.lhsIdx_val_of_single rfl i q
theorem rhs_axis0 (i : S512x4096.Idx) (q : dot_S512x512_S512x4096_S512x4096_1_0_0_1_n_n.contr.Idx) :
    (dot_S512x512_S512x4096_S512x4096_1_0_0_1_n_n.rhsIdx i q 0).val = (q ⟨0, by decide⟩).val :=
  dot_S512x512_S512x4096_S512x4096_1_0_0_1_n_n.rhsIdx_val_of_single rfl i q
theorem rhs_axis1 (i : S512x4096.Idx) (q : dot_S512x512_S512x4096_S512x4096_1_0_0_1_n_n.contr.Idx) :
    (dot_S512x512_S512x4096_S512x4096_1_0_0_1_n_n.rhsIdx i q 1).val = (i 1).val := by
  unfold DotDims.rhsIdx
  rw [dif_neg (show ¬(1 : Fin S512x4096.rank) ∈ dot_S512x512_S512x4096_S512x4096_1_0_0_1_n_n.rhsBatch by decide), dif_pos (show (1 : Fin S512x4096.rank) ∈ dot_S512x512_S512x4096_S512x4096_1_0_0_1_n_n.rhsNonContracting by decide)]
  rfl

/-- A [512, 512] by [512, 4096] product into the zero accumulator reads at (r, k) the sum over the shared axis of
    the left operand's row r times the right operand's column k. -/
theorem product_apply (l : FVec Ideal S512x512 .bf16) (t : FVec Ideal S512x4096 .bf16) (r : Fin 512) (k : Fin 4096) :
    matmul dot_S512x512_S512x4096_S512x4096_1_0_0_1_n_n none l t (constant S512x4096 .f32 0x00000000#32) (ix2 r k)
      = ∑ d : Fin 512, l (ix2 r d) * t (ix2 d k) := by
  simp only [matmul]
  rw [Ideal.matmul_constant_zero_apply, ← Equiv.sum_comp (ValueIdx.contrEquiv1 dot_S512x512_S512x4096_S512x4096_1_0_0_1_n_n 512 rfl rfl).symm]
  refine Finset.sum_congr rfl fun d _ => ?_
  have hd := ValueIdx.contrEquiv1_symm_val dot_S512x512_S512x4096_S512x4096_1_0_0_1_n_n 512 rfl rfl d
  have el : dot_S512x512_S512x4096_S512x4096_1_0_0_1_n_n.lhsIdx (ix2 r k) ((ValueIdx.contrEquiv1 dot_S512x512_S512x4096_S512x4096_1_0_0_1_n_n 512 rfl rfl).symm d) = ix2 r d := funext fun a => Fin.ext (by
    match a with
    | ⟨0, _⟩ => exact lhs_axis0 _ _
    | ⟨1, _⟩ => exact (lhs_axis1 _ _).trans hd)
  have er : dot_S512x512_S512x4096_S512x4096_1_0_0_1_n_n.rhsIdx (ix2 r k) ((ValueIdx.contrEquiv1 dot_S512x512_S512x4096_S512x4096_1_0_0_1_n_n 512 rfl rfl).symm d) = ix2 d k := funext fun a => Fin.ext (by
    match a with
    | ⟨0, _⟩ => exact (rhs_axis0 _ _).trans hd
    | ⟨1, _⟩ => exact rhs_axis1 _ _)
  rw [el, er]

/-! ## The three summands of the tile -/

/-- The rows' squared norms, kept as a column and broadcast along the codes: at (r, k), the sum of squares of row r
    of the latent block. -/
theorem rownorm_apply (x : FVec Ideal S1x512x512 .f32) (h1 : S1x512x512.ShapeCasts S512x512) (h2 : S512x512.Reduces [1] S512)
    (hφ : FKind.Formats .f32) (hacc : (0x00000000#32 : BitVec 32) = 0x00000000#32) (h3 : S512.ShapeCasts S512x1)
    (h4 : S512x1.Broadcasts S512x4096) (r : Fin 512) (k : Fin 4096) :
    broadcastTo S512x4096 (shapeCast S512x1 (multiReduction .add [1] S512 (mulf (shapeCast S512x512 x h1) (shapeCast S512x512 x h1))
        0x00000000#32 h2 hφ hacc) h3) h4 (ix2 r k)
      = ∑ d : Fin 512, x (ix3 (0 : Fin 1) r d) * x (ix3 (0 : Fin 1) r d) :=
  (column_bcast_apply _ h4 r k).trans ((column_apply _ h3 r 0).trans ((rowsum_apply _ h2 hφ hacc r).trans
    (Finset.sum_congr rfl fun d _ => by rw [mulf_apply, shapeCast_1ab_ab_apply])))

/-- The codes' squared norms, one row broadcast along the rows: at (r, k), the norm row at k. -/
theorem codenorm_apply (n : FVec Ideal S1x4096 .f32) (h5 : S1x4096.ShapeCasts S1x4096) (h6 : S1x4096.Broadcasts S512x4096)
    (r : Fin 512) (k : Fin 4096) :
    broadcastTo S512x4096 (shapeCast S1x4096 n h5) h6 (ix2 r k) = n (ix2 (0 : Fin 1) k) :=
  (broadcastTo_1b_ab_apply _ h6 r k).trans (by rw [shapeCast_self])

/-- The inner products: the latent rows, narrowed to bf16 (nothing on the extended reals), times the transposed
    codebook: at (r, k), the sum over the features of row r times column k. -/
theorem inner_apply (x : FVec Ideal S1x512x512 .f32) (t : FVec Ideal S512x4096 .bf16) (h1 : S1x512x512.ShapeCasts S512x512)
    (hb : FTy.bits .bf16 < FTy.bits .f32) (h7 : S512x4096.ShapeCasts S512x4096) (r : Fin 512) (k : Fin 4096) :
    matmul dot_S512x512_S512x4096_S512x4096_1_0_0_1_n_n none (truncf .bf16 (shapeCast S512x512 x h1) hb) (shapeCast S512x4096 t h7)
        (constant S512x4096 .f32 0x00000000#32) (ix2 r k)
      = ∑ d : Fin 512, x (ix3 (0 : Fin 1) r d) * t (ix2 d k) :=
  (product_apply _ _ r k).trans (Finset.sum_congr rfl fun d _ => by
    rw [truncf_apply, shapeCast_1ab_ab_apply, shapeCast_self])

/-! ## The tile -/

/-- Element (0, r, k) of the stored tile. -/
theorem tile_apply (x : FVec Ideal S1x512x512 .f32) (t : FVec Ideal S512x4096 .bf16) (n : FVec Ideal S1x4096 .f32)
    (r : Fin 512) (k : Fin 4096) :
    k0_pay1 (F := Ideal) x t n (ix3 (0 : Fin 1) r k)
      = ((∑ d : Fin 512, x (ix3 (0 : Fin 1) r d) * x (ix3 (0 : Fin 1) r d)) + n (ix2 (0 : Fin 1) k))
          - Ideal.ofBits .f32 0x40000000#32 * ∑ d : Fin 512, x (ix3 (0 : Fin 1) r d) * t (ix2 d k) := by
  unfold k0_pay1
  refine (shapeCast_ab_1ab_apply _ _ (0 : Fin 1) r k).trans ?_
  refine (subf_apply _ _ _).trans (congrArg₂ (· - ·) ?_ ?_)
  · refine (addf_apply _ _ _).trans (congrArg₂ (· + ·) ?_ ?_)
    · exact rownorm_apply x _ _ _ _ _ _ r k
    · exact codenorm_apply n _ _ r k
  · refine (mulf_apply _ _ _).trans (congrArg₂ (· * ·) rfl ?_)
    exact inner_apply x t _ _ _ r k

end Cert.KernelIdeal.Tile

end
-- ==== Proof.TileBlock.lean ====
/- One stored tile is a block of the expanded squared distance. Suppose the three loaded blocks sit in three arrays as
   the kernel's windows place them: the latent block x is rows H*512 .. H*512+511 of batch B of the latent array X; the
   matrix operand t is the codebook CB with its two axes exchanged; the norm row n is the array N of squared norms laid
   as one row. Then element y of the stored tile is the expanded squared distance of (X, CB, N) at the array index i
   that y names inside output block (B, H): the same batch, row H*512 + y_1, code y_2. -/
import proofs.«129325_j33535104647912_1_alg».proof.Proof.TilePayload
import proofs.«129325_j33535104647912_1_alg».proof.Proof.SqDist

noncomputable section

open scoped BigOperators

namespace Cert.KernelIdeal.Tile

open Cert.KernelIdeal Cert.KernelIdeal.Gen Idealize.ShloMosaic Idealize.ShloMosaic.ValueIdx
open Cert.SqDist

theorem tile_block (X : S8x1024x512.Idx → EReal) (CB : S4096x512.Idx → EReal) (N : S4096.Idx → EReal)
    (x : FVec Ideal S1x512x512 .f32) (t : FVec Ideal S512x4096 .bf16) (n : FVec Ideal S1x4096 .f32) (B H : Nat)
    (hx : ∀ (q : S1x512x512.Idx) (p : S8x1024x512.Idx), (p 0).val = B + (q 0).val → (p 1).val = H * 512 + (q 1).val →
      (p 2).val = (q 2).val → x q = X p)
    (ht : ∀ (q : S512x4096.Idx) (p : S4096x512.Idx), (p 0).val = (q 1).val → (p 1).val = (q 0).val → t q = CB p)
    (hn : ∀ (q : S1x4096.Idx) (p : S4096.Idx), (p 0).val = (q 1).val → n q = N p)
    (y : S1x512x4096.Idx) (i : S8x1024x4096.Idx) (h0 : (i 0).val = B + (y 0).val) (h1 : (i 1).val = H * 512 + (y 1).val)
    (h2 : (i 2).val = (y 2).val) :
    k0_pay1 (F := Ideal) x t n y = expanded X CB N i := by
  obtain ⟨u, r, k, rfl⟩ : ∃ (u : Fin 1) (r : Fin 512) (k : Fin 4096), y = ix3 u r k := ⟨y 0, y 1, y 2, eq_ix3 y⟩
  obtain rfl : u = 0 := Fin.ext (by omega)
  have hX : ∀ d : Fin 512, x (ix3 (0 : Fin 1) r d) = X (tokenAt i d) := fun d => hx _ _ h0 h1 rfl
  have hT : ∀ d : Fin 512, t (ix2 d k) = CB (codeAt i d) := fun d => ht _ _ h2 rfl
  have hN : n (ix2 (0 : Fin 1) k) = N (normAt i) := hn _ _ h2
  rw [tile_apply]
  simp only [hX, hT, hN]
  rfl

end Cert.KernelIdeal.Tile

end
-- ==== Proof.Tiles.lean ====
/- From tiles to the whole array. The grid has 16 points, (batch, half): point (B, H) loads rows H*512 .. H*512+511 of
   batch B of the latent array, the whole transposed codebook and the whole norm row, and writes back the [1, 512, 4096]
   tile at block (B, H, 0) of the result. Each written tile is that block of ONE function of the arrays, the expanded
   squared distance; the 16 blocks tile the [8, 1024, 4096] result (row l of batch b lies in block (b, l / 512)); so the
   result array ends holding that function everywhere, and the run can be restated with the result named. -/
import proofs.«129325_j33535104647912_1_alg».proof.Proof.Gen.KernelIdeal.Value
import proofs.«129325_j33535104647912_1_alg».proof.Proof.HostPrefix
import proofs.«129325_j33535104647912_1_alg».proof.Proof.TileBlock
import Idealize.ShloMosaic.Lib.Pipeline.Value
import Idealize.ShloMosaic.Lib.ValueLayout

set_option maxRecDepth 16384

noncomputable section

namespace Cert.KernelIdeal.Tiles

open Cert.KernelIdeal Cert.KernelIdeal.Gen Cert.KernelIdeal.Value Cert.KernelIdeal.HostPrefix Cert.KernelIdeal.Tile
open Idealize.ShloMosaic Idealize.ShloMosaic.TcCoe Idealize.SL.Sem Idealize.ShloMosaic.ValueIdx
open Idealize.ShloMosaic.Pipeline (Dat)
open Cert.SqDist

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 16 points: the latent window moves with the output window on the batch
    and row-block axes and stays at 0 on the feature axis; the two whole-array windows stay at block (0, 0); the
    output window stays at 0 on the code axis. -/
theorem index_maps : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (2 : Fin 3) = 0 :=
  (by decide +kernel : ∀ t : Fin grid0.N, _)

/-- Every (batch, half) is some point's output block. -/
theorem block_of : ∀ (q0 : Fin 8) (q1 : Fin 2), ∃ t : Fin cfg0.N, win0_3.index t = ![q0.val, q1.val, 0] :=
  (by decide +kernel : ∀ (q0 : Fin 8) (q1 : Fin 2), ∃ t : Fin grid0.N, win0_3.index t = ![q0.val, q1.val, 0])

/-- What point `t` writes back is block `t` of the expanded squared distance of the latent array as the region finds
    it, the codebook argument and the reference's squared-norm stage. -/
theorem flushed_eq (c : Dev nD) (t : Fin cfg0.N) :
    (dats m 0 c).flushed 3 t = ((cfg0.win 3).blk t).view.read (Elt Ideal)
      (expanded (V m c main_v27) (m ((c : Thread nD τ).loc main_arg4)) (Cert.ReferenceIdeal.Read.val_main_v32 (F := Ideal) (m ((c : Thread nD τ).loc main_arg4)))) := by
  rw [flushed3]
  unfold out0_3
  rw [View.canon_unit_zero zeros3]
  simp only [View.ld_unit_zero (S := S1x512x512) zeros3, View.ld_unit_zero (S := S512x4096) zeros2, View.ld_unit_zero (S := S1x4096) zeros2]
  obtain ⟨e00, e01, e02, e10, e11, e20, e21, e32⟩ := index_maps t
  funext j
  show k0_pay1 (F := Ideal) (iblk m c 0 t) (iblk m c 1 t) (iblk m c 2 t) j
    = expanded (V m c main_v27) (m ((c : Thread nD τ).loc main_arg4)) (Cert.ReferenceIdeal.Read.val_main_v32 (F := Ideal) (m ((c : Thread nD τ).loc main_arg4))) (((cfg0.win 3).blk t).view.emb j)
  refine tile_block _ _ _ _ _ _ (win0_3.index t (0 : Fin 3)) (win0_3.index t (1 : Fin 3)) ?_ ?_ ?_ j _ ?_ ?_ ?_
  · -- the latent block is rows of the latent array
    intro q p h0 h1 h2
    show V m c main_v27 (((cfg0.win 0).blk t).view.emb q) = V m c main_v27 p
    refine congrArg _ (funext fun a => Fin.ext ?_)
    match a with
    | ⟨0, _⟩ => show win0_0.index t (0 : Fin 3) * 1 + 1 * (q 0).val = (p 0).val; omega
    | ⟨1, _⟩ => show win0_0.index t (1 : Fin 3) * 512 + 1 * (q 1).val = (p 1).val; omega
    | ⟨2, _⟩ => show win0_0.index t (2 : Fin 3) * 512 + 1 * (q 2).val = (p 2).val; omega
  · -- the matrix operand is the codebook with its axes exchanged
    intro q p h0 h1
    obtain ⟨d, k, rfl⟩ : ∃ (d : Fin 512) (k : Fin 4096), q = ix2 d k := ⟨q 0, q 1, eq_ix2 q⟩
    have he : ((cfg0.win 1).blk t).view.emb (ix2 d k) = ix2 d k := funext fun a => Fin.ext (by
      match a with
      | ⟨0, _⟩ => show win0_1.index t (0 : Fin 2) * 512 + 1 * d.val = d.val; omega
      | ⟨1, _⟩ => show win0_1.index t (1 : Fin 2) * 4096 + 1 * k.val = k.val; omega)
    show V m c main_v29 (((cfg0.win 1).blk t).view.emb (ix2 d k)) = _
    rw [he, codesT_eq]
    refine (transpose_ix2_apply _ _ d k).trans ?_
    show ((m ((c : Thread nD τ).loc main_arg4)) : S4096x512.Idx → EReal) (ix2 k d) = _
    exact congrArg _ (funext fun a => Fin.ext (by
      match a with
      | ⟨0, _⟩ => exact h0.symm
      | ⟨1, _⟩ => exact h1.symm))
  · -- the norm row is the squared norms laid as one row
    intro q p h
    obtain ⟨u, k, rfl⟩ : ∃ (u : Fin 1) (k : Fin 4096), q = ix2 u k := ⟨q 0, q 1, eq_ix2 q⟩
    have he : ((cfg0.win 2).blk t).view.emb (ix2 u k) = ix2 u k := funext fun a => Fin.ext (by
      match a with
      | ⟨0, _⟩ => show win0_2.index t (0 : Fin 2) * 1 + 1 * u.val = u.val; omega
      | ⟨1, _⟩ => show win0_2.index t (1 : Fin 2) * 4096 + 1 * k.val = k.val; omega)
    show V m c main_v32 (((cfg0.win 2).blk t).view.emb (ix2 u k)) = _
    rw [he, norms_eq]
    refine (shapeCast_a_1a_apply _ _ u k).trans ?_
    exact congrArg _ (funext fun a => Fin.ext (by
      match a with
      | ⟨0, _⟩ => exact h.symm))
  · show win0_3.index t (0 : Fin 3) * 1 + 1 * (j 0).val = win0_3.index t (0 : Fin 3) + (j 0).val; omega
  · show win0_3.index t (1 : Fin 3) * 512 + 1 * (j 1).val = win0_3.index t (1 : Fin 3) * 512 + (j 1).val; omega
  · show win0_3.index t (2 : Fin 3) * 4096 + 1 * (j 2).val = (j 2).val; omega

/-- An index of the result is in point `t`'s block iff each coordinate is in the block's range on its axis. -/
theorem mem_block (t : Fin cfg0.N) (i : S8x1024x4096.Idx) :
    i ∈ ((cfg0.win 3).blk t).view.set ↔ ∀ a : Fin 3, win0_3.index t a * S1x512x4096.size a ≤ (i a).val
      ∧ (i a).val < win0_3.index t a * S1x512x4096.size a + S1x512x4096.size a := by
  show i ∈ ((View.whole main_v33).slice (win0_3.rect t)).set ↔ _
  rw [View.set_slice_whole, Rect.mem_set_unit]
  exact Iff.rfl

/-- The output's blocks tile the result: row l of batch b lies in block (b, l / 512). -/
theorem covered (i : S8x1024x4096.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 4096 := (i 2).isLt
  obtain ⟨t, ht⟩ := block_of ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 4096 ≤ (i 2).val ∧ (i 2).val < win0_3.index t (2 : Fin 3) * 4096 + 4096; omega

/-- The result array after the run: the expanded squared distance of the reference's own latent stage of the
    arguments, the codebook argument and the reference's squared-norm stage. -/
theorem result_array (c : Dev nD) :
    (dats m 0 c).arrAt 3 cfg0.N = expanded (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg4)) (Cert.ReferenceIdeal.Read.val_main_v32 (F := Ideal) (m ((c : Thread nD τ).loc main_arg4))) := by
  rw [← latent_eq m c]
  exact (dats m 0 c).arrAt_eq_of_cover 3 _ (fun t _ => flushed_eq m c t) covered

/-- The run with the result named: every weakly fair execution ends with the result array at the expanded squared
    distance and the arguments unchanged. -/
theorem run : θ_run defs (onTc (τ := τ) (main (F := Ideal))) ⟨m, fun _ => 0, ρ⟩ fun r => ∀ c : Dev nD,
      r.2.mem ((c : Thread nD τ).loc main_v33) = expanded (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) (m ((c : Thread nD τ).loc main_arg4)) (Cert.ReferenceIdeal.Read.val_main_v32 (F := Ideal) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result_array m c), (h c).2⟩) (run_blocks m ρ)

end Cert.KernelIdeal.Tiles

end
-- ==== Proof.lean ====
/- Squared distances to a codebook. For every batch b, position l and code k the programs return
       | x[b,l,:] - c[k,:] |^2   in the expanded form   |x|^2 + |c|^2 - 2 <x, c>,
   where x = hidden states + position embedding + chain embedding + entity embedding (three row gathers by
   per-token ids, a padding id selected in where the mask is off) and c is the codebook. The reference forms the three
   terms over whole arrays: a row sum of squares of x, a row sum of squares of c, and one contraction of x with c over
   the 512 features. The kernel forms x and the codes' squared norms on the host by the reference's own operations,
   hands the region the codebook transposed and narrowed to bf16, and computes the rest tile by tile: each of 16 grid
   points takes 512 rows of one batch, sums their squares along the lanes, multiplies them into the transposed codebook
   with a zero accumulator, and stores (row norms + code norms) - 2 * products.
   On the extended reals the narrowing is the identity, the product into a zero accumulator is the plain sum over the
   features, a lane sum and a host sum from zero are the same sum, and the order of the array's axes does not matter to
   a sum over the features, so both results are ONE function of the arguments, index by index (SqDist.lean: `expanded`).
   Neither side is rearranged by a law that could fail at an infinity: the two expressions have the same shape, term
   for term, and the precondition is never opened.
   The modules: SqDist (the function), RefSqDist (the reference computes it), TilePayload and TileBlock (one stored tile
   is a block of it), HostPrefix (what the region's three input arrays hold), Tiles (the tiles fill the result array);
   here the three frames, the idealization (the ideal pass rewrote nothing) and the equivalence are assembled. -/
import proofs.«129325_j33535104647912_1_alg».proof.Defs
import proofs.«129325_j33535104647912_1_alg».proof.Proof.Gen.Kernel
import proofs.«129325_j33535104647912_1_alg».proof.Proof.Gen.Kernel.Skeleton
import proofs.«129325_j33535104647912_1_alg».proof.Proof.Gen.Kernel.Launch
import proofs.«129325_j33535104647912_1_alg».proof.Proof.Gen.Kernel.Points
import proofs.«129325_j33535104647912_1_alg».proof.Proof.Gen.Kernel.Frame
import proofs.«129325_j33535104647912_1_alg».proof.Proof.Gen.KernelIdeal
import proofs.«129325_j33535104647912_1_alg».proof.Proof.Gen.KernelIdeal.Skeleton
import proofs.«129325_j33535104647912_1_alg».proof.Proof.Gen.KernelIdeal.Launch
import proofs.«129325_j33535104647912_1_alg».proof.Proof.Gen.KernelIdeal.Points
import proofs.«129325_j33535104647912_1_alg».proof.Proof.Gen.KernelIdeal.Frame
import proofs.«129325_j33535104647912_1_alg».proof.Proof.Gen.ReferenceIdeal
import proofs.«129325_j33535104647912_1_alg».proof.Proof.Gen.Pre_finite_inputs
import proofs.«129325_j33535104647912_1_alg».proof.Proof.Gen.KernelIdeal.Value
import proofs.«129325_j33535104647912_1_alg».proof.Proof.Gen.ReferenceIdeal.Run
import proofs.«129325_j33535104647912_1_alg».proof.Proof.Gen.ReferenceIdeal.Read
import proofs.«129325_j33535104647912_1_alg».proof.Proof.RefSqDist
import proofs.«129325_j33535104647912_1_alg».proof.Proof.Tiles
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the expanded squared
    distance of the same three arrays: the kernel's by its tiles, the reference's by its stages read at an index. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v40_eq, Cert.ReferenceIdeal.RefValue.result_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
